-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S1600000 32) (main_arg2 : IVec S1600000 32) (main_arg3 : FVec F S1600000 .f32) (main_arg4 : FVec F S512x128 .f32) (main_arg5 : FVec F S128 .f32) (main_arg6 : FVec F S128x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S5000x512 : Shape := ⟨2, ![5000, 512]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 45
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S1600000x1, .f32⟩
  | .hbm, ⟨37, _⟩ => ⟨S1600000x40, .f32⟩
  | .hbm, ⟨38, _⟩ => ⟨S1600000x40, .f32⟩
  | .hbm, ⟨39, _⟩ => ⟨S_, .f32⟩
  | .hbm, ⟨40, _⟩ => ⟨S100000x40, .f32⟩
  | .hbm, ⟨41, _⟩ => ⟨S1600000x1, .i32⟩
  | .hbm, ⟨42, _⟩ => ⟨S100000x40, .f32⟩
  | .hbm, ⟨43, _⟩ => ⟨S1x40, .f32⟩
  | .hbm, ⟨44, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S5000x512_S512x128_S5000x128_1_0_0_1_n_n_wf : DotDims.WF S5000x512 S512x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x40, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x40, .f32⟩
  | .hbm, ⟨41, _⟩ => ⟨S1600000x1, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x1, .f32⟩
  | .hbm, ⟨64, _⟩ => ⟨S100000x40, .f32⟩
  | .hbm, ⟨65, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.Block0.lean ====
/- The first layer's kernel at one grid point: the matrix product of the point's 5000 rows of the features by the whole
   weight matrix, read at one element over the extended reals. Rounding the operands to bf16 is the identity there, so
   element (p, q) is the sum over k of x(p, k) · w(k, q). -/
import proofs.«106417_j47433618817355_1_alg».proof.Proof.Gen.KernelIdeal.Skeleton
import proofs.«106417_j47433618817355_1_alg».proof.Proof.LibPlainMatmul

noncomputable section

namespace Cert.KernelIdeal.Blocks

open Cert.KernelIdeal Cert.KernelIdeal.Gen Idealize.ShloMosaic Idealize.ShloMosaic.ValueIdx

/-- The stored block of the first layer at row p, column q. -/
theorem pay0_apply (xb : Vec Ideal S5000x512 .f32) (wb : Vec Ideal S512x128 .f32) (p : Fin 5000) (q : Fin 128) :
    k0_pay1 (F := Ideal) xb wb (ix2 p q) = ∑ k : Fin 512, xb (ix2 p k) * wb (ix2 k q) := by
  unfold k0_pay1
  exact Cert.LibPlainMatmul.matmul_plain_apply none _ _ p q

end Cert.KernelIdeal.Blocks

end
-- ==== Proof.Region0.lean ====
/- The first kernel region as a whole: when it is entered from buffer contents V, its result array ends holding the matrix
   product of the feature array by the first weight matrix, row by row: entry (r, q) is the sum over k of x(r, k) · w(k, q).
   Grid point t computes rows 5000·t … 5000·t + 4999 from the same rows of x and the whole of w; the twenty points' blocks
   tile the array. -/
import proofs.«106417_j47433618817355_1_alg».proof.Proof.Gen.KernelIdeal.Frame
import proofs.«106417_j47433618817355_1_alg».proof.Proof.Block0
import Idealize.ShloMosaic.Lib.Pipeline.Value

set_option maxRecDepth 16384

noncomputable section

namespace Cert.KernelIdeal.Regions

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The product of a matrix of 100000 rows by the first weight matrix, entry by entry. -/
def dense1 (x : S100000x512.Idx → EReal) (w : S512x128.Idx → EReal) : S100000x128.Idx → EReal :=
  fun i => ∑ k : Fin 512, x (ix2 (n0 := 100000) (i 0) k) * w (ix2 (n1 := 128) k (i 1))

/-- One element of a point's stored block is the product's entry in the same row of the whole array, when the block's
    rows of x are the array's rows and the weights are the same. -/
theorem point0 (xb : Vec Ideal S5000x512 .f32) (wb : Vec Ideal S512x128 .f32) (X : S100000x512.Idx → EReal) (W : S512x128.Idx → EReal)
    (y : S5000x128.Idx) (i : S100000x128.Idx)
    (hx : ∀ k : Fin 512, xb (ix2 (n0 := 5000) (y 0) k) = X (ix2 (n0 := 100000) (i 0) k))
    (hw : ∀ k : Fin 512, wb (ix2 (n1 := 128) k (y 1)) = W (ix2 (n1 := 128) k (i 1))) :
    k0_pay1 (F := Ideal) xb wb y = dense1 X W i := by
  obtain ⟨p, q, rfl⟩ : ∃ (p : Fin 5000) (q : Fin 128), y = ix2 p q := ⟨y 0, y 1, eq_ix2 y⟩
  rw [pay0_apply]
  unfold dense1
  exact Finset.sum_congr rfl fun k _ => by rw [← hx k, ← hw k]

/-- Where the three windows' blocks sit at point t: x's and the result's at block row t, w's at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds. -/
theorem flushed0_eq (c : Dev nD) (t : Fin cfg0.N) :
    (dat0 V c).flushed 2 t = ((cfg0.win 2).blk t).view.read (Elt Ideal) (dense1 (V c main_arg0) (V c main_arg4)) := by
  show (cfg0.win 2).cut (grid0.coords t) ((dat0 V c).after 2 t) = _
  rw [after0_2]
  unfold out0_2
  rw [View.canon_unit_zero hz2]
  simp only [View.ld_unit_zero (S := S5000x512) hz2, View.ld_unit_zero (S := S512x128) hz2]
  obtain ⟨e0, e1, e2, e3, e4, e5⟩ := idx_facts0 t
  funext j
  refine point0 (iblk0 V c 0 t) (iblk0 V c 1 t) (V c main_arg0) (V c main_arg4) j (((cfg0.win 2).blk t).view.emb j) (fun k => ?_) (fun k => ?_)
  · show V c main_arg0 (((cfg0.win 0).blk t).view.emb (ix2 (n0 := 5000) (j 0) k)) = V c main_arg0 _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  · show V c main_arg4 (((cfg0.win 1).blk t).view.emb (ix2 (n1 := 128) k (j 1))) = V c main_arg4 _
    refine congrArg (V c main_arg4) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An index of the result array is in point t's block iff its row is one of the point's 5000 rows. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every index of the result array is in the block of the point its row belongs to. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [mem_blk0]
  obtain ⟨e0, e1, e2, e3, e4, e5⟩ := idx_facts0 ⟨(i 0).val / 5000, by show (i 0).val / 5000 < 20; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The result array after the region: the product of the arrays the region finds. -/
theorem final0 (c : Dev nD) : (dat0 V c).arrAt 2 cfg0.N = dense1 (V c main_arg0) (V c main_arg4) :=
  (dat0 V c).arrAt_eq_of_cover 2 _ (fun t _ => flushed0_eq V c t) cover0

end Cert.KernelIdeal.Regions

end
-- ==== Proof.Block1.lean ====
/- The second layer's kernel at one grid point, read at one element over the extended reals: the point's 5000 rows of the
   aggregated first layer plus the bias row, cut below at zero, times the whole second weight matrix. Rounding to bf16 is
   the identity there, so element (p, q) is the sum over k of max(a(p, k) + b(0, k), 0) · w(k, q). -/
import proofs.«106417_j47433618817355_1_alg».proof.Proof.Gen.KernelIdeal.Skeleton
import proofs.«106417_j47433618817355_1_alg».proof.Proof.LibPlainMatmul
import Idealize.ShloMosaic.Lib.Pipeline.Value

noncomputable section

namespace Cert.KernelIdeal.Blocks

open Cert.KernelIdeal Cert.KernelIdeal.Gen Idealize.ShloMosaic Idealize.ShloMosaic.ValueIdx

/-- The bias row spread over the 5000 rows reads, at (p, k), the row's entry of lane k, whatever the row p. -/
private theorem pay1_bias_row_apply (v : Vec Ideal S1x128 .f32) (h : S1x128.Broadcasts S5000x128) (p : Fin 5000) (k : Fin 128) :
    broadcastTo S5000x128 v h (ix2 p k) = v (ix2 (0 : Fin 1) k) := by
  refine broadcastTo_apply v h (ix2 p k) (ix2 (0 : Fin 1) k) fun ax => ?_
  match ax with
  | ⟨0, _⟩ => rfl
  | ⟨1, _⟩ => rfl

/-- The stored block of the second layer at row p, column q. -/
theorem pay1_apply (b : Vec Ideal S1x128 .f32) (a : Vec Ideal S5000x128 .f32) (w : Vec Ideal S128x40 .f32) (p : Fin 5000) (q : Fin 40) :
    k1_pay1 (F := Ideal) b a w (ix2 p q)
      = ∑ k : Fin 128, max (a (ix2 p k) + b (ix2 (0 : Fin 1) k)) (Ideal.ofBits .f32 0x00000000#32) * w (ix2 k q) := by
  unfold k1_pay1
  refine (Cert.LibPlainMatmul.matmul_plain_apply none _ _ p q).trans ?_
  refine Finset.sum_congr rfl fun k _ => ?_
  rw [shapeCast_self, shapeCast_self, shapeCast_self]
  show max (a (ix2 p k) + broadcastTo S5000x128 b broadcasts_S1x128_S5000x128 (ix2 p k)) (Ideal.ofBits .f32 0x00000000#32) * w (ix2 k q) = _
  rw [pay1_bias_row_apply]

end Cert.KernelIdeal.Blocks

end
-- ==== Proof.Region1.lean ====
/- The second kernel region as a whole: when it is entered from buffer contents V, its result array ends holding, row by
   row, the aggregated first layer plus the bias row, cut below at zero, times the second weight matrix: entry (r, q) is
   the sum over k of max(a(r, k) + b(0, k), 0) · w(k, q). Grid point t computes rows 5000·t … 5000·t + 4999 from the same
   rows of a, the whole bias row and the whole of w; the twenty points' blocks tile the array. -/
import proofs.«106417_j47433618817355_1_alg».proof.Proof.Gen.KernelIdeal.Frame
import proofs.«106417_j47433618817355_1_alg».proof.Proof.Block1
import proofs.«106417_j47433618817355_1_alg».proof.Proof.Region0
import Idealize.ShloMosaic.Lib.Pipeline.Value

set_option maxRecDepth 16384

noncomputable section

namespace Cert.KernelIdeal.Regions

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A matrix of 100000 rows plus a bias row, cut below at zero, times the second weight matrix, entry by entry. -/
def dense2 (a : S100000x128.Idx → EReal) (b : S1x128.Idx → EReal) (w : S128x40.Idx → EReal) : S100000x40.Idx → EReal :=
  fun i => ∑ k : Fin 128, max (a (ix2 (n0 := 100000) (i 0) k) + b (ix2 (0 : Fin 1) k)) (Ideal.ofBits .f32 0x00000000#32) * w (ix2 (n1 := 40) k (i 1))

/-- One element of a point's stored block is the entry of the same row of the whole array, when the block's rows of a are
    the array's rows and the bias row and the weights are the same. -/
theorem point1 (bb : Vec Ideal S1x128 .f32) (ab : Vec Ideal S5000x128 .f32) (wb : Vec Ideal S128x40 .f32)
    (A : S100000x128.Idx → EReal) (B : S1x128.Idx → EReal) (W : S128x40.Idx → EReal)
    (y : S5000x40.Idx) (i : S100000x40.Idx)
    (ha : ∀ k : Fin 128, ab (ix2 (n0 := 5000) (y 0) k) = A (ix2 (n0 := 100000) (i 0) k))
    (hb : ∀ k : Fin 128, bb (ix2 (0 : Fin 1) k) = B (ix2 (0 : Fin 1) k))
    (hw : ∀ k : Fin 128, wb (ix2 (n1 := 40) k (y 1)) = W (ix2 (n1 := 40) k (i 1))) :
    k1_pay1 (F := Ideal) bb ab wb y = dense2 A B W i := by
  obtain ⟨p, q, rfl⟩ : ∃ (p : Fin 5000) (q : Fin 40), y = ix2 p q := ⟨y 0, y 1, eq_ix2 y⟩
  rw [pay1_apply]
  unfold dense2
  exact Finset.sum_congr rfl fun k _ => by rw [← ha k, ← hb k, ← hw k]

/-- Where the four windows' blocks sit at point t: a's and the result's at block row t, the bias row's and w's at the
    origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the second layer of the arrays the region finds. -/
theorem flushed1_eq (c : Dev nD) (t : Fin cfg1.N) :
    (dat1 V c).flushed 3 t
      = ((cfg1.win 3).blk t).view.read (Elt Ideal) (dense2 (V c main_v13) (V c main_v14) (V c main_arg6)) := by
  show (cfg1.win 3).cut (grid1.coords t) ((dat1 V c).after 3 t) = _
  rw [after1_3]
  unfold out1_3
  rw [View.canon_unit_zero hz2]
  simp only [View.ld_unit_zero (S := S1x128) hz2, View.ld_unit_zero (S := S5000x128) hz2, View.ld_unit_zero (S := S128x40) hz2]
  obtain ⟨e0, e1, e2, e3, e4, e5, e6, e7⟩ := idx_facts1 t
  funext j
  refine point1 (iblk1 V c 1 t) (iblk1 V c 0 t) (iblk1 V c 2 t) (V c main_v13) (V c main_v14) (V c main_arg6) j
    (((cfg1.win 3).blk t).view.emb j) (fun k => ?_) (fun k => ?_) (fun k => ?_)
  · show V c main_v13 (((cfg1.win 0).blk t).view.emb (ix2 (n0 := 5000) (j 0) k)) = V c main_v13 _
    refine congrArg (V c main_v13) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show V c main_v14 (((cfg1.win 1).blk t).view.emb (ix2 (0 : Fin 1) k)) = V c main_v14 _
    refine congrArg (V c main_v14) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg6 (((cfg1.win 2).blk t).view.emb (ix2 (n1 := 40) k (j 1))) = V c main_arg6 _
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 40 + 1 * (j 1).val = win1_3.index t (1 : Fin 2) * 40 + 1 * (j 1).val; omega

/-- An index of the result array is in point t's block iff its row is one of the point's 5000 rows. -/
theorem mem_blk1 (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v15).slice (win1_3.rect t)).set ↔ _
  rw [View.set_slice_whole, Rect.mem_set_unit]
  exact Iff.rfl

/-- Every index of the result array is in the block of the point its row belongs to. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  refine ⟨⟨(i 0).val / 5000, by show (i 0).val / 5000 < 20; omega⟩, flush1_3 _, ?_⟩
  rw [mem_blk1]
  obtain ⟨e0, e1, e2, e3, e4, e5, e6, e7⟩ := idx_facts1 ⟨(i 0).val / 5000, by show (i 0).val / 5000 < 20; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 40 ≤ (i 1).val ∧ (i 1).val < win1_3.index _ (1 : Fin 2) * 40 + 40
    rw [e7]; omega

/-- The result array after the region: the second layer of the arrays the region finds. -/
theorem final1 (c : Dev nD) : (dat1 V c).arrAt 3 cfg1.N = dense2 (V c main_v13) (V c main_v14) (V c main_arg6) :=
  (dat1 V c).arrAt_eq_of_cover 3 _ (fun t _ => flushed1_eq V c t) cover1

end Cert.KernelIdeal.Regions

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.LibLogSoftmaxRow.lean ====
/-
  The logarithm of a softmax along a row, over the extended reals, as one function of the row: every entry less the
  row's maximum, less the logarithm of the sum of the exponentials of the entries so shifted. The maximum is taken as a
  fold of max from the value of the f32 pattern of -∞ (which is ⊥, so the fold is the row's supremum).
-/
import Idealize.ShloMosaic.PureOps.Ideal
import Mathlib.Data.Finset.Fold

noncomputable section

open Idealize.ShloMosaic

namespace Cert.LibLogSoftmaxRow

/-- The f32 pattern of -∞ is the bottom extended real. -/
theorem ofBits_neg_inf : Ideal.ofBits .f32 0xFF800000#32 = (⊥ : EReal) := by simp [Ideal.ofBits, Ideal.ieee]

/-- A row's maximum: max folded over the row from the value of the pattern of -∞. -/
def rowMax {N : ℕ} (z : Fin N → EReal) : EReal :=
  (Finset.univ : Finset (Fin N)).fold max (Ideal.ofBits .f32 0xFF800000#32) z

/-- Taking the maximum with -∞ once more changes nothing. -/
theorem max_neg_inf_rowMax {N : ℕ} (z : Fin N → EReal) : max (Ideal.ofBits .f32 0xFF800000#32) (rowMax z) = rowMax z := by
  rw [ofBits_neg_inf]; exact max_eq_right bot_le

/-- Entry j of the logarithm of the softmax of the row z. -/
def logSoftmaxRow {N : ℕ} (z : Fin N → EReal) (j : Fin N) : EReal :=
  (z j - rowMax z) - Ideal.log (∑ c : Fin N, Ideal.exp (z c - rowMax z))

end Cert.LibLogSoftmaxRow

end
-- ==== Proof.Block2.lean ====
/- The last kernel at one grid point, read at one element over the extended reals: the point's 5000 rows of the aggregated
   second layer plus the bias row, then the logarithm of the softmax along each row. -/
import proofs.«106417_j47433618817355_1_alg».proof.Proof.Gen.KernelIdeal.Skeleton
import proofs.«106417_j47433618817355_1_alg».proof.Proof.LibKeepdimsColumn
import proofs.«106417_j47433618817355_1_alg».proof.Proof.LibLogSoftmaxRow
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx

/-- The biased block at row p, lane c: the aggregated entry plus the bias of that lane (the two casts of the bias row
    and the cast of the block keep their shapes; the row is then repeated down the 5000 rows). -/
theorem biased_apply (b : Vec Ideal S1x40 .f32) (a : Vec Ideal S5000x40 .f32) (p : Fin 5000) (c : Fin 40) :
    addf (F := Ideal) (φ := .f32) (shapeCast S5000x40 a shapeCasts_S5000x40_S5000x40)
      (broadcastTo S5000x40 (shapeCast S1x40 (shapeCast S1x40 b shapeCasts_S1x40_S1x40) shapeCasts_S1x40_S1x40)
        broadcasts_S1x40_S5000x40) (ix2 p c)
      = a (ix2 p c) + b (ix2 (0 : Fin 1) c) := by
  rw [shapeCast_self, shapeCast_self, shapeCast_self]
  refine congrArg (fun t => a (ix2 p c) + t) ?_
  refine broadcastTo_apply b _ (ix2 p c) (ix2 (0 : Fin 1) c) fun ax => ?_
  match ax with
  | ⟨0, _⟩ => rfl
  | ⟨1, _⟩ => rfl

/-- The maximum reduction along the lanes, at row p, is the row's maximum. -/
theorem laneMax_apply (z : FVec Ideal S5000x40 .f32) (p : Fin 5000) :
    multiReduction .maximumf [1] S5000 z 0xFF800000#32 reduces_S5000x40_S5000 (.inl rfl) rfl (ix1 p)
      = Cert.LibLogSoftmaxRow.rowMax (fun c : Fin 40 => z (ix2 p c)) := by
  refine (Ideal.multiReduction_maximumf_single z _ reduces_S5000x40_S5000 (.inl rfl) rfl (ix1 p)).trans ?_
  refine congrArg ((Finset.univ : Finset (Fin 40)).fold max (Ideal.ofBits .f32 0xFF800000#32)) ?_
  exact funext fun k => congrArg z (funext fun c => Fin.ext (by
    match c with
    | ⟨0, _⟩ => rfl
    | ⟨1, _⟩ => rfl))

/-- The row maxima kept as a column and repeated over the lanes: at (p, c), the maximum of row p. -/
theorem maxColumn_apply (z : FVec Ideal S5000x40 .f32) (p : Fin 5000) (c : Fin 40) :
    broadcastTo S5000x40
        (shapeCast S5000x1 (multiReduction .maximumf [1] S5000 z 0xFF800000#32 reduces_S5000x40_S5000 (.inl rfl) rfl)
          shapeCasts_S5000_S5000x1) broadcasts_S5000x1_S5000x40 (ix2 p c)
      = Cert.LibLogSoftmaxRow.rowMax (fun c : Fin 40 => z (ix2 p c)) :=
  (Cert.KeepdimsColumn.broadcastTo_a1_ab_apply _ _ p c).trans
    ((Cert.KeepdimsColumn.shapeCast_a_a1_apply _ _ p (0 : Fin 1)).trans (laneMax_apply z p))

/-- The logarithm of the lane sums of the exponentials of a block w, kept as a column and repeated over the lanes:
    at (p, c), the logarithm of the sum over row p of the exponentials. -/
theorem logSumColumn_apply (w : FVec Ideal S5000x40 .f32) (p : Fin 5000) (c : Fin 40) :
    broadcastTo S5000x40
        (log (shapeCast S5000x1 (multiReduction .add [1] S5000 (exp w) 0x00000000#32 reduces_S5000x40_S5000 (.inl rfl) rfl)
          shapeCasts_S5000_S5000x1)) broadcasts_S5000x1_S5000x40 (ix2 p c)
      = Ideal.log (∑ k : Fin 40, Ideal.exp (w (ix2 p k))) := by
  refine (Cert.KeepdimsColumn.broadcastTo_a1_ab_apply _ _ p c).trans ?_
  refine congrArg Ideal.log ?_
  refine (Cert.KeepdimsColumn.shapeCast_a_a1_apply _ _ p (0 : Fin 1)).trans ?_
  exact Cert.KeepdimsColumn.laneSum_apply (exp w) _ _ _ _ p

/-- The logarithm of the softmax along the lanes of any block z, as the kernel computes it, at (p, q). -/
theorem logSoftmax_apply (z : FVec Ideal S5000x40 .f32) (p : Fin 5000) (q : Fin 40) :
    subf
        (subf z (broadcastTo S5000x40
          (shapeCast S5000x1 (multiReduction .maximumf [1] S5000 z 0xFF800000#32 reduces_S5000x40_S5000 (.inl rfl) rfl)
            shapeCasts_S5000_S5000x1) broadcasts_S5000x1_S5000x40))
        (broadcastTo S5000x40
          (log (shapeCast S5000x1
            (multiReduction .add [1] S5000
              (exp (subf z (broadcastTo S5000x40
                (shapeCast S5000x1 (multiReduction .maximumf [1] S5000 z 0xFF800000#32 reduces_S5000x40_S5000 (.inl rfl) rfl)
                  shapeCasts_S5000_S5000x1) broadcasts_S5000x1_S5000x40)))
              0x00000000#32 reduces_S5000x40_S5000 (.inl rfl) rfl)
            shapeCasts_S5000_S5000x1)) broadcasts_S5000x1_S5000x40) (ix2 p q)
      = Cert.LibLogSoftmaxRow.logSoftmaxRow (fun c : Fin 40 => z (ix2 p c)) q := by
  have hshift : ∀ c : Fin 40,
      subf z (broadcastTo S5000x40
          (shapeCast S5000x1 (multiReduction .maximumf [1] S5000 z 0xFF800000#32 reduces_S5000x40_S5000 (.inl rfl) rfl)
            shapeCasts_S5000_S5000x1) broadcasts_S5000x1_S5000x40) (ix2 p c)
        = z (ix2 p c) - Cert.LibLogSoftmaxRow.rowMax (fun c : Fin 40 => z (ix2 p c)) :=
    fun c => congrArg (fun t => z (ix2 p c) - t) (maxColumn_apply z p c)
  unfold Cert.LibLogSoftmaxRow.logSoftmaxRow
  refine (subf_apply _ _ _).trans ?_
  rw [hshift q, logSumColumn_apply _ p q]
  refine congrArg (fun t => (z (ix2 p q) - Cert.LibLogSoftmaxRow.rowMax (fun c : Fin 40 => z (ix2 p c))) - Ideal.log t) ?_
  exact Finset.sum_congr rfl fun k _ => congrArg Ideal.exp (hshift k)

/-- The stored block of the last kernel at row p, column q: the log-softmax of row p of (a + bias). -/
theorem pay2_apply (b : Vec Ideal S1x40 .f32) (a : Vec Ideal S5000x40 .f32) (p : Fin 5000) (q : Fin 40) :
    k2_pay1 (F := Ideal) b a (ix2 p q)
      = Cert.LibLogSoftmaxRow.logSoftmaxRow (fun c : Fin 40 => a (ix2 p c) + b (ix2 (0 : Fin 1) c)) q := by
  unfold k2_pay1
  refine (logSoftmax_apply _ p q).trans ?_
  exact congrArg (fun f => Cert.LibLogSoftmaxRow.logSoftmaxRow f q) (funext fun c => biased_apply b a p c)

end Cert.KernelIdeal.Blocks

end
-- ==== Proof.Region2.lean ====
/- The last kernel region as a whole: when it is entered from buffer contents V, its result array ends holding, row by row,
   the logarithm of the softmax of (aggregated second layer + bias): entry (r, q) is entry q of the log-softmax of the row
   c ↦ a(r, c) + b(0, c). Grid point t computes rows 5000·t … 5000·t + 4999 from the same rows of a and the whole bias
   row; the twenty points' blocks tile the array. -/
import proofs.«106417_j47433618817355_1_alg».proof.Proof.Gen.KernelIdeal.Frame
import proofs.«106417_j47433618817355_1_alg».proof.Proof.Block2
import proofs.«106417_j47433618817355_1_alg».proof.Proof.Region0
import Idealize.ShloMosaic.Lib.Pipeline.Value

set_option maxRecDepth 16384

noncomputable section

namespace Cert.KernelIdeal.Regions

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The log-softmax along each row of an array of 100000 rows plus a bias row, entry by entry. -/
def logSoftmaxRows (a : S100000x40.Idx → EReal) (b : S1x40.Idx → EReal) : S100000x40.Idx → EReal :=
  fun i => Cert.LibLogSoftmaxRow.logSoftmaxRow (fun c : Fin 40 => a (ix2 (n0 := 100000) (i 0) c) + b (ix2 (0 : Fin 1) c)) (i 1)

/-- One element of a point's stored block is the log-softmax entry in the same row and column of the whole array, when
    the block's rows of a are the array's rows, the bias row is the same, and the column is the same. -/
theorem point2 (bb : Vec Ideal S1x40 .f32) (ab : Vec Ideal S5000x40 .f32) (A : S100000x40.Idx → EReal) (B : S1x40.Idx → EReal)
    (y : S5000x40.Idx) (i : S100000x40.Idx)
    (ha : ∀ k : Fin 40, ab (ix2 (n0 := 5000) (y 0) k) = A (ix2 (n0 := 100000) (i 0) k))
    (hb : ∀ k : Fin 40, bb (ix2 (0 : Fin 1) k) = B (ix2 (0 : Fin 1) k))
    (hq : (y 1).val = (i 1).val) :
    k2_pay1 (F := Ideal) bb ab y = logSoftmaxRows A B i := by
  obtain ⟨p, q, rfl⟩ : ∃ (p : Fin 5000) (q : Fin 40), y = ix2 p q := ⟨y 0, y 1, eq_ix2 y⟩
  rw [pay2_apply]
  unfold logSoftmaxRows
  have hrow : (fun c : Fin 40 => ab (ix2 p c) + bb (ix2 (0 : Fin 1) c))
      = (fun c : Fin 40 => A (ix2 (n0 := 100000) (i 0) c) + B (ix2 (0 : Fin 1) c)) :=
    funext fun k => congrArg₂ (· + ·) (ha k) (hb k)
  have hcol : q = i 1 := Fin.ext hq
  rw [hrow, hcol]

/-- Where the three windows' blocks sit at point t: a's and the result's at block row t, the bias row's at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the log-softmax rows of the arrays the region finds. -/
theorem flushed2_eq (c : Dev nD) (t : Fin cfg2.N) :
    (dat2 V c).flushed 2 t = ((cfg2.win 2).blk t).view.read (Elt Ideal) (logSoftmaxRows (V c main_v28) (V c main_v29)) := by
  show (cfg2.win 2).cut (grid2.coords t) ((dat2 V c).after 2 t) = _
  rw [after2_2]
  unfold out2_2
  rw [View.canon_unit_zero hz2]
  simp only [View.ld_unit_zero (S := S5000x40) hz2, View.ld_unit_zero (S := S1x40) hz2]
  obtain ⟨e0, e1, e2, e3, e4, e5⟩ := idx_facts2 t
  funext j
  refine point2 (iblk2 V c 1 t) (iblk2 V c 0 t) (V c main_v28) (V c main_v29) j (((cfg2.win 2).blk t).view.emb j) (fun k => ?_) (fun k => ?_) ?_
  · show V c main_v28 (((cfg2.win 0).blk t).view.emb (ix2 (n0 := 5000) (j 0) k)) = V c main_v28 _
    refine congrArg (V c main_v28) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 40 + 1 * k.val = k.val; omega
  · show V c main_v29 (((cfg2.win 1).blk t).view.emb (ix2 (0 : Fin 1) k)) = V c main_v29 _
    refine congrArg (V c main_v29) (funext fun a => Fin.ext ?_)
    match a with
    | ⟨0, _⟩ => show win2_1.index t (0 : Fin 2) * 1 + 1 * 0 = 0; omega
    | ⟨1, _⟩ => show win2_1.index t (1 : Fin 2) * 40 + 1 * k.val = k.val; omega
  · show (j 1).val = win2_2.index t (1 : Fin 2) * 40 + 1 * (j 1).val; omega

/-- An index of the result array is in point t's block iff its row is one of the point's 5000 rows. -/
theorem mem_blk2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v30).slice (win2_2.rect t)).set ↔ _
  rw [View.set_slice_whole, Rect.mem_set_unit]
  exact Iff.rfl

/-- Every index of the result array is in the block of the point its row belongs to. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  refine ⟨⟨(i 0).val / 5000, by show (i 0).val / 5000 < 20; omega⟩, flush2_2 _, ?_⟩
  rw [mem_blk2]
  obtain ⟨e0, e1, e2, e3, e4, e5⟩ := idx_facts2 ⟨(i 0).val / 5000, by show (i 0).val / 5000 < 20; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 40 ≤ (i 1).val ∧ (i 1).val < win2_2.index _ (1 : Fin 2) * 40 + 40
    rw [e5]; omega

/-- The result array after the region: the log-softmax rows of the arrays the region finds. -/
theorem final2 (c : Dev nD) : (dat2 V c).arrAt 2 cfg2.N = logSoftmaxRows (V c main_v28) (V c main_v29) :=
  (dat2 V c).arrAt_eq_of_cover 2 _ (fun t _ => flushed2_eq V c t) cover2

end Cert.KernelIdeal.Regions

end
-- ==== Proof.RefStages.lean ====
/- The reference's three dense stages read at one element over the extended reals: the first product; the second product
   of the rectified, biased aggregate; and the logarithm of the softmax of the biased second aggregate along each row. The
   two aggregations between them (a gather by source, a scaling by the edge value, a scatter-add by destination) are not
   opened: they enter as the stages' own terms. -/
import proofs.«106417_j47433618817355_1_alg».proof.Proof.RefReadP
import proofs.«106417_j47433618817355_1_alg».proof.Proof.LibLogSoftmaxRow
import Idealize.ShloMosaic.PureOps.Reduce

noncomputable section

namespace Cert.ReferenceIdeal.Stages

open Cert.ReferenceIdeal Cert.ReferenceIdeal.ReadP Idealize.ShloMosaic Idealize.ShloMosaic.ValueIdx

/-- The first product at row r, column q. -/
theorem dense1_apply (x0 : (⟨S100000x512, .f32⟩ : BufTy).Contents (Elt Ideal)) (x4 : (⟨S512x128, .f32⟩ : BufTy).Contents (Elt Ideal)) (r : Fin 100000) (q : Fin 128) :
    val_main_v0 (F := Ideal) x0 x4 (ix2 r q) = ∑ k : Fin 512, x0 (ix2 r k) * x4 (ix2 k q) := by
  rw [val_main_v0_apply]
  refine Finset.sum_congr rfl fun k _ => ?_
  have el : lidx_main_v0 (ix2 r q) k = ix2 r k :=
    funext fun a => Fin.ext (by match a with | ⟨0, _⟩ => rfl | ⟨1, _⟩ => rfl)
  have er : ridx_main_v0 (ix2 r q) k = ix2 k q :=
    funext fun a => Fin.ext (by match a with | ⟨0, _⟩ => rfl | ⟨1, _⟩ => rfl)
  rw [el, er]

/-- The second product at row r, column q: over the first aggregate plus the first bias, cut below at zero. -/
theorem dense2_apply (x0 : (⟨S100000x512, .f32⟩ : BufTy).Contents (Elt Ideal)) (x1 x2 : (⟨S1600000, .i32⟩ : BufTy).Contents (Elt Ideal)) (x3 : (⟨S1600000, .f32⟩ : BufTy).Contents (Elt Ideal)) (x4 : (⟨S512x128, .f32⟩ : BufTy).Contents (Elt Ideal)) (x5 : (⟨S128, .f32⟩ : BufTy).Contents (Elt Ideal)) (x6 : (⟨S128x40, .f32⟩ : BufTy).Contents (Elt Ideal))
    (r : Fin 100000) (q : Fin 40) :
    val_main_v18 (F := Ideal) x0 x1 x2 x3 x4 x5 x6 (ix2 r q)
      = ∑ k : Fin 128, max (val_main_v13 (F := Ideal) x0 x1 x2 x3 x4 (ix2 r k) + x5 (ix1 k)) (Ideal.ofBits .f32 0x00000000#32) * x6 (ix2 k q) := by
  rw [val_main_v18_apply]
  refine Finset.sum_congr rfl fun k _ => ?_
  have el : lidx_main_v18 (ix2 r q) k = ix2 r k :=
    funext fun a => Fin.ext (by match a with | ⟨0, _⟩ => rfl | ⟨1, _⟩ => rfl)
  have er : ridx_main_v18 (ix2 r q) k = ix2 k q :=
    funext fun a => Fin.ext (by match a with | ⟨0, _⟩ => rfl | ⟨1, _⟩ => rfl)
  have eb : idx_main_v14 (idx_main_v15 (ix2 r k)) = ix1 k :=
    funext fun a => Fin.ext (by match a with | ⟨0, _⟩ => rfl)
  rw [el, er, val_main_v17_apply, val_main_v16_apply, val_main_v15_apply, val_main_v14_apply, eb,
    val_main_call0_v0_apply, val_main_call0_cst_apply]
  rfl

/-- The second aggregate with its bias, at row r, column c. -/
theorem biased_apply (x0 : (⟨S100000x512, .f32⟩ : BufTy).Contents (Elt Ideal)) (x1 x2 : (⟨S1600000, .i32⟩ : BufTy).Contents (Elt Ideal)) (x3 : (⟨S1600000, .f32⟩ : BufTy).Contents (Elt Ideal)) (x4 : (⟨S512x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal))
    (r : Fin 100000) (c : Fin 40) :
    val_main_v34 (F := Ideal) x0 x1 x2 x3 x4 x5 x6 x7 (ix2 r c)
      = val_main_v31 (F := Ideal) x0 x1 x2 x3 x4 x5 x6 (ix2 r c) + x7 (ix1 c) := by
  have eb : idx_main_v32 (idx_main_v33 (ix2 r c)) = ix1 c :=
    funext fun a => Fin.ext (by match a with | ⟨0, _⟩ => rfl)
  rw [val_main_v34_apply, val_main_v33_apply, val_main_v32_apply, eb]
  rfl

/-- A maximum-reduction along the columns, from the pattern of -∞, of an array whose row r is z: at r it is the row's maximum. -/
theorem reduce_max_row (y : (⟨S100000x40, .f32⟩ : BufTy).Contents (Elt Ideal)) (z : Fin 40 → EReal) (r : Fin 100000)
    (hyz : ∀ c : Fin 40, y (ix2 r c) = z c) :
    Host.reduce (FloatOps.maximumf (F := Ideal) (φ := .f32)) y (val_main_call1_cst (F := Ideal)) Gen.reducesTo_S100000x40_S100000_d1 Gen.h_S_ (ix1 r)
      = Cert.LibLogSoftmaxRow.rowMax z := by
  have h : S100000x40.Reduces [1] S100000 := by decide
  rw [Host.reduce_eq_fold_single (FloatOps.maximumf (F := Ideal) (φ := .f32)) y _ Gen.reducesTo_S100000x40_S100000_d1 h Gen.h_S_]
  have ef : (y ∘ h.lift (ix1 r)) = z := funext fun c => by
    have el : h.lift (ix1 r) c = ix2 r c :=
      funext fun a => Fin.ext (by match a with | ⟨0, _⟩ => rfl | ⟨1, _⟩ => rfl)
    show y (h.lift (ix1 r) c) = _
    rw [el]
    exact hyz c
  rw [ef, val_main_call1_cst_apply]
  rfl

/-- The row-maximum stage at row r is the maximum of row r of the biased second aggregate, folded from -∞. -/
theorem rowMax_apply (x0 : (⟨S100000x512, .f32⟩ : BufTy).Contents (Elt Ideal)) (x1 x2 : (⟨S1600000, .i32⟩ : BufTy).Contents (Elt Ideal)) (x3 : (⟨S1600000, .f32⟩ : BufTy).Contents (Elt Ideal)) (x4 : (⟨S512x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal))
    (r : Fin 100000) :
    val_main_call1_v0 (F := Ideal) x0 x1 x2 x3 x4 x5 x6 x7 (ix1 r)
      = Cert.LibLogSoftmaxRow.rowMax (fun c : Fin 40 => val_main_v31 (F := Ideal) x0 x1 x2 x3 x4 x5 x6 (ix2 r c) + x7 (ix1 c)) := by
  unfold val_main_call1_v0
  exact reduce_max_row _ _ r (fun c => biased_apply x0 x1 x2 x3 x4 x5 x6 x7 r c)

/-- The shifted entry at row r, column c: the biased second aggregate less its row's maximum. -/
theorem shifted_apply (x0 : (⟨S100000x512, .f32⟩ : BufTy).Contents (Elt Ideal)) (x1 x2 : (⟨S1600000, .i32⟩ : BufTy).Contents (Elt Ideal)) (x3 : (⟨S1600000, .f32⟩ : BufTy).Contents (Elt Ideal)) (x4 : (⟨S512x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal))
    (r : Fin 100000) (c : Fin 40) :
    val_main_call1_v5 (F := Ideal) x0 x1 x2 x3 x4 x5 x6 x7 (ix2 r c)
      = (val_main_v31 (F := Ideal) x0 x1 x2 x3 x4 x5 x6 (ix2 r c) + x7 (ix1 c))
        - Cert.LibLogSoftmaxRow.rowMax (fun c : Fin 40 => val_main_v31 (F := Ideal) x0 x1 x2 x3 x4 x5 x6 (ix2 r c) + x7 (ix1 c)) := by
  have er : idx_main_call1_v3 (idx_main_call1_v4 (ix2 r c)) = ix1 r :=
    funext fun a => Fin.ext (by match a with | ⟨0, _⟩ => rfl)
  rw [val_main_call1_v5_apply, val_main_call1_v4_apply, val_main_call1_v3_apply, er, val_main_call1_v2_apply,
    val_main_call1_v1_apply, val_main_call1_cst_0_apply, rowMax_apply, biased_apply,
    Ideal.maximumf_def, Ideal.ofBits_def, Cert.LibLogSoftmaxRow.max_neg_inf_rowMax]
  rfl

/-- The exponential of the shifted entry at row r, column c. -/
theorem expShifted_apply (x0 : (⟨S100000x512, .f32⟩ : BufTy).Contents (Elt Ideal)) (x1 x2 : (⟨S1600000, .i32⟩ : BufTy).Contents (Elt Ideal)) (x3 : (⟨S1600000, .f32⟩ : BufTy).Contents (Elt Ideal)) (x4 : (⟨S512x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal))
    (r : Fin 100000) (c : Fin 40) :
    val_main_call1_v6 (F := Ideal) x0 x1 x2 x3 x4 x5 x6 x7 (ix2 r c)
      = Ideal.exp ((val_main_v31 (F := Ideal) x0 x1 x2 x3 x4 x5 x6 (ix2 r c) + x7 (ix1 c))
        - Cert.LibLogSoftmaxRow.rowMax (fun c : Fin 40 => val_main_v31 (F := Ideal) x0 x1 x2 x3 x4 x5 x6 (ix2 r c) + x7 (ix1 c))) := by
  rw [val_main_call1_v6_apply, shifted_apply, Ideal.hostUnary_exp_def]

/-- The sum stage at row r: the sum over the row of the exponentials of the shifted entries. -/
theorem sumExp_apply (x0 : (⟨S100000x512, .f32⟩ : BufTy).Contents (Elt Ideal)) (x1 x2 : (⟨S1600000, .i32⟩ : BufTy).Contents (Elt Ideal)) (x3 : (⟨S1600000, .f32⟩ : BufTy).Contents (Elt Ideal)) (x4 : (⟨S512x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal))
    (r : Fin 100000) :
    val_main_call1_v7 (F := Ideal) x0 x1 x2 x3 x4 x5 x6 x7 (ix1 r)
      = ∑ c : Fin 40, Ideal.exp ((val_main_v31 (F := Ideal) x0 x1 x2 x3 x4 x5 x6 (ix2 r c) + x7 (ix1 c))
        - Cert.LibLogSoftmaxRow.rowMax (fun c : Fin 40 => val_main_v31 (F := Ideal) x0 x1 x2 x3 x4 x5 x6 (ix2 r c) + x7 (ix1 c))) := by
  have ek : ∀ k : Fin 40, idx_main_call1_v7 (ix1 r) k = ix2 r k := fun k =>
    funext fun a => Fin.ext (by match a with | ⟨0, _⟩ => rfl | ⟨1, _⟩ => rfl)
  rw [val_main_call1_v7_apply, val_main_call1_cst_1_apply, Ideal.ofBits_def, Ideal.ofBits_zero_f32, zero_add]
  refine Finset.sum_congr rfl fun k _ => ?_
  rw [ek k]
  exact expShifted_apply x0 x1 x2 x3 x4 x5 x6 x7 r k

/-- The result at row r, column q: the log-softmax of row r of the second aggregate plus the second bias. -/
theorem logSoftmax_apply (x0 : (⟨S100000x512, .f32⟩ : BufTy).Contents (Elt Ideal)) (x1 x2 : (⟨S1600000, .i32⟩ : BufTy).Contents (Elt Ideal)) (x3 : (⟨S1600000, .f32⟩ : BufTy).Contents (Elt Ideal)) (x4 : (⟨S512x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal))
    (r : Fin 100000) (q : Fin 40) :
    val_main_v35 (F := Ideal) x0 x1 x2 x3 x4 x5 x6 x7 (ix2 r q)
      = Cert.LibLogSoftmaxRow.logSoftmaxRow (fun c : Fin 40 => val_main_v31 (F := Ideal) x0 x1 x2 x3 x4 x5 x6 (ix2 r c) + x7 (ix1 c)) q := by
  have er : idx_main_call1_v8 (idx_main_call1_v10 (ix2 r q)) = ix1 r :=
    funext fun a => Fin.ext (by match a with | ⟨0, _⟩ => rfl)
  rw [val_main_v35_apply, val_main_call1_v10_apply, val_main_call1_v9_apply, val_main_call1_v8_apply, er,
    sumExp_apply, shifted_apply, Ideal.subf_def, Ideal.hostUnary_log_def]
  rfl

end Cert.ReferenceIdeal.Stages

end
-- ==== Proof.Bridge.lean ====
/- The three kernel regions' whole-array functions are the reference's three dense stages: the first product; the second
   product of the biased first aggregate cut at zero; the log-softmax of the biased second aggregate. Each is read entry by
   entry on both sides; the aggregates between them enter as the reference's own stage terms and are never opened. Also a
   vector recast as a one-row matrix, read at an entry. -/
import proofs.«106417_j47433618817355_1_alg».proof.Proof.Region0
import proofs.«106417_j47433618817355_1_alg».proof.Proof.Region1
import proofs.«106417_j47433618817355_1_alg».proof.Proof.Region2
import proofs.«106417_j47433618817355_1_alg».proof.Proof.RefStages

noncomputable section

namespace Cert.Bridge

open Idealize.ShloMosaic Idealize.ShloMosaic.ValueIdx
open Cert.ReferenceIdeal.ReadP (val_main_v0 val_main_v13 val_main_v18 val_main_v31 val_main_v35)
open Cert.KernelIdeal.Regions (dense1 dense2 logSoftmaxRows)

/-- A vector of n entries recast as the one-row matrix [1, n] reads, at (0, k), the vector at k. -/
theorem reshape_row_apply {α : Type} {n : ℕ} (v : (⟨1, ![n]⟩ : Shape).Idx → α) (h : (⟨1, ![n]⟩ : Shape).ShapeCasts ⟨2, ![1, n]⟩)
    (k : Fin n) : shapeCast ⟨2, ![1, n]⟩ v h (ix2 (0 : Fin 1) k) = v (ix1 k) := by
  refine shapeCast_apply v h _ _ ?_
  rw [Shape.rowMajor_val_one, Shape.rowMajor_val_two]
  show k.val = 0 * n + k.val
  rw [Nat.zero_mul, Nat.zero_add]

/-- The first region's product is the reference's first product. -/
theorem dense1_eq (x0 : (⟨Cert.ReferenceIdeal.S100000x512, .f32⟩ : BufTy).Contents (Elt Ideal)) (x4 : (⟨Cert.ReferenceIdeal.S512x128, .f32⟩ : BufTy).Contents (Elt Ideal)) :
    dense1 x0 x4 = val_main_v0 (F := Ideal) x0 x4 := by
  funext i
  obtain ⟨r, q, rfl⟩ : ∃ (r : Fin 100000) (q : Fin 128), i = ix2 r q := ⟨i 0, i 1, eq_ix2 i⟩
  refine Eq.trans ?_ (Cert.ReferenceIdeal.Stages.dense1_apply x0 x4 r q).symm
  rfl

/-- The second region's function of the first aggregate, a bias row and the second weights is the reference's second
    product, when the bias row holds the bias vector. -/
theorem dense2_eq (x0 : (⟨Cert.ReferenceIdeal.S100000x512, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S512x128, .f32⟩ : BufTy).Contents (Elt Ideal)) (x5 : (⟨Cert.ReferenceIdeal.S128, .f32⟩ : BufTy).Contents (Elt Ideal)) (x6 : (⟨Cert.ReferenceIdeal.S128x40, .f32⟩ : BufTy).Contents (Elt Ideal))
    (b : Cert.KernelIdeal.S1x128.Idx → EReal) (hb : ∀ k : Fin 128, b (ix2 (0 : Fin 1) k) = x5 (ix1 k)) :
    dense2 (val_main_v13 (F := Ideal) x0 x1 x2 x3 x4) b x6 = val_main_v18 (F := Ideal) x0 x1 x2 x3 x4 x5 x6 := by
  funext i
  obtain ⟨r, q, rfl⟩ : ∃ (r : Fin 100000) (q : Fin 40), i = ix2 r q := ⟨i 0, i 1, eq_ix2 i⟩
  refine Eq.trans ?_ (Cert.ReferenceIdeal.Stages.dense2_apply x0 x1 x2 x3 x4 x5 x6 r q).symm
  unfold Cert.KernelIdeal.Regions.dense2
  exact Finset.sum_congr rfl fun k _ => by rw [hb k]

/-- The third region's function of the second aggregate and a bias row is the reference's result, when the bias row holds
    the bias vector. -/
theorem logSoftmax_eq (x0 : (⟨Cert.ReferenceIdeal.S100000x512, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S512x128, .f32⟩ : BufTy).Contents (Elt Ideal)) (x5 : (⟨Cert.ReferenceIdeal.S128, .f32⟩ : BufTy).Contents (Elt Ideal)) (x6 : (⟨Cert.ReferenceIdeal.S128x40, .f32⟩ : BufTy).Contents (Elt Ideal)) (x7 : (⟨Cert.ReferenceIdeal.S40, .f32⟩ : BufTy).Contents (Elt Ideal))
    (b : Cert.KernelIdeal.S1x40.Idx → EReal) (hb : ∀ k : Fin 40, b (ix2 (0 : Fin 1) k) = x7 (ix1 k)) :
    logSoftmaxRows (val_main_v31 (F := Ideal) x0 x1 x2 x3 x4 x5 x6) b = val_main_v35 (F := Ideal) x0 x1 x2 x3 x4 x5 x6 x7 := by
  funext i
  obtain ⟨r, q, rfl⟩ : ∃ (r : Fin 100000) (q : Fin 40), i = ix2 r q := ⟨i 0, i 1, eq_ix2 i⟩
  refine Eq.trans ?_ (Cert.ReferenceIdeal.Stages.logSoftmax_apply x0 x1 x2 x3 x4 x5 x6 x7 r q).symm
  unfold Cert.KernelIdeal.Regions.logSoftmaxRows
  exact congrArg (fun f => Cert.LibLogSoftmaxRow.logSoftmaxRow f q) (funext fun c => by rw [hb c])

end Cert.Bridge

end
-- ==== Proof.HostChains.lean ====
/- The kernel program's two stretches of host operations between its regions, read from any buffer contents W they start
   from. Each stretch gathers the rows of a layer's product by edge source, scales them by the edge values and adds them up
   by edge destination — the very operations of the reference's aggregation stage, so when the product's buffer holds the
   reference's product stage and the edge arrays are the same, the aggregate's buffer ends holding the reference's
   aggregation stage. Each stretch also recasts a bias vector as a one-row matrix, and leaves the argument arrays alone. -/
import proofs.«106417_j47433618817355_1_alg».proof.Proof.Gen.KernelIdeal.Launch
import proofs.«106417_j47433618817355_1_alg».proof.Proof.RefReadP
import Idealize.ShloMosaic.Lib.StableHlo.Run
import Idealize.ShloMosaic.Lib.ValueIdx

noncomputable section

namespace Cert.KernelIdeal.HostChains

open Cert.KernelIdeal Cert.KernelIdeal.Gen
open Idealize.ShloMosaic Idealize.ShloMosaic.TcCoe Idealize.ShloMosaic.ValueIdx Idealize.ShloMosaic.StableHlo
open Cert.ReferenceIdeal.ReadP (val_main_v0 val_main_v13 val_main_v18 val_main_v31)

variable (W : Valuation τ sig (Elt Ideal))

/-- A vector of n entries recast as the one-row matrix [1, n] reads, at (0, k), the vector at k: both sit at row-major
    position k. -/
theorem shapeCast_n_1n_apply {α : Type} {n : ℕ} (v : (⟨1, ![n]⟩ : Shape).Idx → α) (h : (⟨1, ![n]⟩ : Shape).ShapeCasts ⟨2, ![1, n]⟩)
    (k : Fin n) : shapeCast ⟨2, ![1, n]⟩ v h (ix2 (0 : Fin 1) k) = v (ix1 k) :=
  shapeCast_apply v h _ _ (by
    rw [Shape.rowMajor_val_one, Shape.rowMajor_val_two]
    show k.val = 0 * n + k.val
    rw [Nat.zero_mul, Nat.zero_add])

/-- The first stretch: from the first product to the first aggregate. -/
theorem stretch1_agg (x0 : (⟨Cert.ReferenceIdeal.S100000x512, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S512x128, .f32⟩ : BufTy).Contents (Elt Ideal))
    (h0 : W (Proc.devRef .tc main_v0) = val_main_v0 (F := Ideal) x0 x4)
    (h1 : W (Proc.devRef .tc main_arg1) = x1) (h2 : W (Proc.devRef .tc main_arg2) = x2) (h3 : W (Proc.devRef .tc main_arg3) = x3) :
    after (hostOps1 (F := Ideal)) W (Proc.devRef .tc main_v13) = val_main_v13 (F := Ideal) x0 x1 x2 x3 x4 := by
  after_results_simp
  rw [h0, h1, h2, h3]
  unfold Cert.ReferenceIdeal.ReadP.val_main_v13 Cert.ReferenceIdeal.ReadP.val_main_v11 Cert.ReferenceIdeal.ReadP.val_main_cst
    Cert.ReferenceIdeal.ReadP.val_main_v12 Cert.ReferenceIdeal.ReadP.val_main_v10 Cert.ReferenceIdeal.ReadP.val_main_v9
    Cert.ReferenceIdeal.ReadP.val_main_v8 Cert.ReferenceIdeal.ReadP.val_main_v7 Cert.ReferenceIdeal.ReadP.val_main_v6
    Cert.ReferenceIdeal.ReadP.val_main_v5 Cert.ReferenceIdeal.ReadP.val_main_v4 Cert.ReferenceIdeal.ReadP.val_main_v3
    Cert.ReferenceIdeal.ReadP.val_main_c_0 Cert.ReferenceIdeal.ReadP.val_main_v2 Cert.ReferenceIdeal.ReadP.val_main_v1
    Cert.ReferenceIdeal.ReadP.val_main_c
  rfl

/-- The first stretch recasts the first bias vector as a row. -/
theorem stretch1_bias (k : Fin 128) :
    after (hostOps1 (F := Ideal)) W (Proc.devRef .tc main_v14) (ix2 (0 : Fin 1) k) = W (Proc.devRef .tc main_arg5) (ix1 k) := by
  after_results_simp
  exact shapeCast_n_1n_apply _ _ k

/-- The first stretch writes no argument array. -/
theorem stretch1_keep1 : after (hostOps1 (F := Ideal)) W (Proc.devRef .tc main_arg1) = W (Proc.devRef .tc main_arg1) := by
  refine after_of_forall_not_mem _ _ (List.forall_iff_forall_mem.mp ?_)
  simp only [hostOps1, List.Forall, nullary_writes, unary_writes, binary_writes, ternary_writes, reshape_writes, Finset.mem_singleton]
  repeat' apply And.intro
  all_goals exact devRef_ne_of_ne (by decide)
theorem stretch1_keep2 : after (hostOps1 (F := Ideal)) W (Proc.devRef .tc main_arg2) = W (Proc.devRef .tc main_arg2) := by
  refine after_of_forall_not_mem _ _ (List.forall_iff_forall_mem.mp ?_)
  simp only [hostOps1, List.Forall, nullary_writes, unary_writes, binary_writes, ternary_writes, reshape_writes, Finset.mem_singleton]
  repeat' apply And.intro
  all_goals exact devRef_ne_of_ne (by decide)
theorem stretch1_keep3 : after (hostOps1 (F := Ideal)) W (Proc.devRef .tc main_arg3) = W (Proc.devRef .tc main_arg3) := by
  refine after_of_forall_not_mem _ _ (List.forall_iff_forall_mem.mp ?_)
  simp only [hostOps1, List.Forall, nullary_writes, unary_writes, binary_writes, ternary_writes, reshape_writes, Finset.mem_singleton]
  repeat' apply And.intro
  all_goals exact devRef_ne_of_ne (by decide)
theorem stretch1_keep6 : after (hostOps1 (F := Ideal)) W (Proc.devRef .tc main_arg6) = W (Proc.devRef .tc main_arg6) := by
  refine after_of_forall_not_mem _ _ (List.forall_iff_forall_mem.mp ?_)
  simp only [hostOps1, List.Forall, nullary_writes, unary_writes, binary_writes, ternary_writes, reshape_writes, Finset.mem_singleton]
  repeat' apply And.intro
  all_goals exact devRef_ne_of_ne (by decide)
theorem stretch1_keep7 : after (hostOps1 (F := Ideal)) W (Proc.devRef .tc main_arg7) = W (Proc.devRef .tc main_arg7) := by
  refine after_of_forall_not_mem _ _ (List.forall_iff_forall_mem.mp ?_)
  simp only [hostOps1, List.Forall, nullary_writes, unary_writes, binary_writes, ternary_writes, reshape_writes, Finset.mem_singleton]
  repeat' apply And.intro
  all_goals exact devRef_ne_of_ne (by decide)

/-- The second stretch: from the second product to the second aggregate. -/
theorem stretch2_agg (x0 : (⟨Cert.ReferenceIdeal.S100000x512, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S512x128, .f32⟩ : BufTy).Contents (Elt Ideal)) (x5 : (⟨Cert.ReferenceIdeal.S128, .f32⟩ : BufTy).Contents (Elt Ideal)) (x6 : (⟨Cert.ReferenceIdeal.S128x40, .f32⟩ : BufTy).Contents (Elt Ideal))
    (h0 : W (Proc.devRef .tc main_v15) = val_main_v18 (F := Ideal) x0 x1 x2 x3 x4 x5 x6)
    (h1 : W (Proc.devRef .tc main_arg1) = x1) (h2 : W (Proc.devRef .tc main_arg2) = x2) (h3 : W (Proc.devRef .tc main_arg3) = x3) :
    after (hostOps2 (F := Ideal)) W (Proc.devRef .tc main_v28) = val_main_v31 (F := Ideal) x0 x1 x2 x3 x4 x5 x6 := by
  after_results_simp
  rw [h0, h1, h2, h3]
  unfold Cert.ReferenceIdeal.ReadP.val_main_v31 Cert.ReferenceIdeal.ReadP.val_main_v29 Cert.ReferenceIdeal.ReadP.val_main_cst_3
    Cert.ReferenceIdeal.ReadP.val_main_v30 Cert.ReferenceIdeal.ReadP.val_main_v28 Cert.ReferenceIdeal.ReadP.val_main_v27
    Cert.ReferenceIdeal.ReadP.val_main_v26 Cert.ReferenceIdeal.ReadP.val_main_v25 Cert.ReferenceIdeal.ReadP.val_main_v24
    Cert.ReferenceIdeal.ReadP.val_main_v23 Cert.ReferenceIdeal.ReadP.val_main_v22 Cert.ReferenceIdeal.ReadP.val_main_v21
    Cert.ReferenceIdeal.ReadP.val_main_c_2 Cert.ReferenceIdeal.ReadP.val_main_v20 Cert.ReferenceIdeal.ReadP.val_main_v19
    Cert.ReferenceIdeal.ReadP.val_main_c_1
  rfl

/-- The second stretch recasts the second bias vector as a row. -/
theorem stretch2_bias (k : Fin 40) :
    after (hostOps2 (F := Ideal)) W (Proc.devRef .tc main_v29) (ix2 (0 : Fin 1) k) = W (Proc.devRef .tc main_arg7) (ix1 k) := by
  after_results_simp
  exact shapeCast_n_1n_apply _ _ k

end Cert.KernelIdeal.HostChains

end
-- ==== Proof.KernelValue.lean ====
/- The kernel program's value: its result buffer ends holding the reference's last stage of the argument arrays. The run
   goes region, host stretch, region, host stretch, region; at each boundary the buffer that carries the computation on
   holds the reference's stage of the same name: the first product, the first aggregate, the second product (of the biased
   aggregate cut at zero), the second aggregate, the log-softmax of the biased second aggregate. -/
import proofs.«106417_j47433618817355_1_alg».proof.Proof.KernelRunP
import proofs.«106417_j47433618817355_1_alg».proof.Proof.Region0
import proofs.«106417_j47433618817355_1_alg».proof.Proof.Region1
import proofs.«106417_j47433618817355_1_alg».proof.Proof.Region2
import proofs.«106417_j47433618817355_1_alg».proof.Proof.Bridge
import proofs.«106417_j47433618817355_1_alg».proof.Proof.HostChains

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open Cert.ReferenceIdeal.ReadP (val_main_v0 val_main_v13 val_main_v18 val_main_v31 val_main_v35)

variable (m : (ℓ : Loc nD τ sig) → Buf (Elt Ideal) ℓ) (ρ : Dev nD → PrngReg)

/-! ## After region 0 -/

/-- A buffer that is not one of region 0's arrays holds its launch contents after it. -/
theorem W1_launch (c : Dev nD) (b : Ref sig .tc) (hb : ∀ w, Pipeline.arrRef spec0 w ≠ b) :
    W1 m ρ c (Proc.devRef .tc b) = m ((c : Thread nD τ).loc b) := W1_of_ne m ρ c b hb

/-- Region 0's result buffer holds the first product. -/
theorem W1_v0 (c : Dev nD) : W1 m ρ c (Proc.devRef .tc main_v0) = val_main_v0 (F := Ideal) (m ((c : Thread nD τ).loc main_arg0)) (m ((c : Thread nD τ).loc main_arg4)) :=
  (W1_arr m ρ c 2).trans ((Regions.final0 (V0 m ρ) c).trans (Cert.Bridge.dense1_eq _ _))

/-! ## After the first host stretch -/

theorem W2_v13 (c : Dev nD) : W2 m ρ c (Proc.devRef .tc main_v13) = val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  HostChains.stretch1_agg (W1 m ρ c) _ _ _ _ _ (W1_v0 m ρ c) (W1_launch m ρ c main_arg1 (by decide)) (W1_launch m ρ c main_arg2 (by decide)) (W1_launch m ρ c main_arg3 (by decide))
theorem W2_v14 (c : Dev nD) (k : Fin 128) : W2 m ρ c (Proc.devRef .tc main_v14) (ix2 (0 : Fin 1) k) = (m ((c : Thread nD τ).loc main_arg5)) (ix1 k) :=
  (HostChains.stretch1_bias (W1 m ρ c) k).trans (congrFun (W1_launch m ρ c main_arg5 (by decide)) _)
theorem W2_arg1 (c : Dev nD) : W2 m ρ c (Proc.devRef .tc main_arg1) = (m ((c : Thread nD τ).loc main_arg1)) := (HostChains.stretch1_keep1 (W1 m ρ c)).trans (W1_launch m ρ c main_arg1 (by decide))
theorem W2_arg2 (c : Dev nD) : W2 m ρ c (Proc.devRef .tc main_arg2) = (m ((c : Thread nD τ).loc main_arg2)) := (HostChains.stretch1_keep2 (W1 m ρ c)).trans (W1_launch m ρ c main_arg2 (by decide))
theorem W2_arg3 (c : Dev nD) : W2 m ρ c (Proc.devRef .tc main_arg3) = (m ((c : Thread nD τ).loc main_arg3)) := (HostChains.stretch1_keep3 (W1 m ρ c)).trans (W1_launch m ρ c main_arg3 (by decide))
theorem W2_arg6 (c : Dev nD) : W2 m ρ c (Proc.devRef .tc main_arg6) = (m ((c : Thread nD τ).loc main_arg6)) := (HostChains.stretch1_keep6 (W1 m ρ c)).trans (W1_launch m ρ c main_arg6 (by decide))
theorem W2_arg7 (c : Dev nD) : W2 m ρ c (Proc.devRef .tc main_arg7) = (m ((c : Thread nD τ).loc main_arg7)) := (HostChains.stretch1_keep7 (W1 m ρ c)).trans (W1_launch m ρ c main_arg7 (by decide))

/-! ## After region 1 -/

/-- Region 1's result buffer holds the second product. -/
theorem W3_v15 (c : Dev nD) : W3 m ρ c (Proc.devRef .tc main_v15) = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W3_arr m ρ c 3).trans ((Regions.final1 (V2 m ρ) c).trans ?_)
  rw [show V2 m ρ c main_v13 = val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) from W2_v13 m ρ c,
    show V2 m ρ c main_arg6 = (m ((c : Thread nD τ).loc main_arg6)) from W2_arg6 m ρ c]
  exact Cert.Bridge.dense2_eq _ _ _ _ _ _ _ (V2 m ρ c main_v14) (W2_v14 m ρ c)

theorem W3_arg1 (c : Dev nD) : W3 m ρ c (Proc.devRef .tc main_arg1) = (m ((c : Thread nD τ).loc main_arg1)) := (W3_of_ne m ρ c main_arg1 (by decide)).trans (W2_arg1 m ρ c)
theorem W3_arg2 (c : Dev nD) : W3 m ρ c (Proc.devRef .tc main_arg2) = (m ((c : Thread nD τ).loc main_arg2)) := (W3_of_ne m ρ c main_arg2 (by decide)).trans (W2_arg2 m ρ c)
theorem W3_arg3 (c : Dev nD) : W3 m ρ c (Proc.devRef .tc main_arg3) = (m ((c : Thread nD τ).loc main_arg3)) := (W3_of_ne m ρ c main_arg3 (by decide)).trans (W2_arg3 m ρ c)
theorem W3_arg7 (c : Dev nD) : W3 m ρ c (Proc.devRef .tc main_arg7) = (m ((c : Thread nD τ).loc main_arg7)) := (W3_of_ne m ρ c main_arg7 (by decide)).trans (W2_arg7 m ρ c)

/-! ## After the second host stretch -/

theorem W4_v28 (c : Dev nD) : W4 m ρ c (Proc.devRef .tc main_v28) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  HostChains.stretch2_agg (W3 m ρ c) _ _ _ _ _ _ _ (W3_v15 m ρ c) (W3_arg1 m ρ c) (W3_arg2 m ρ c) (W3_arg3 m ρ c)
theorem W4_v29 (c : Dev nD) (k : Fin 40) : W4 m ρ c (Proc.devRef .tc main_v29) (ix2 (0 : Fin 1) k) = (m ((c : Thread nD τ).loc main_arg7)) (ix1 k) :=
  (HostChains.stretch2_bias (W3 m ρ c) k).trans (congrFun (W3_arg7 m ρ c) _)

/-! ## After region 2 -/

/-- Region 2's result buffer, the program's result, holds the reference's last stage. -/
theorem W5_v30 (c : Dev nD) : W5 m ρ c (Proc.devRef .tc main_v30) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 2).trans ((Regions.final2 (V4 m ρ) c).trans ?_)
  rw [show V4 m ρ c main_v28 = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from W4_v28 m ρ c]
  exact Cert.Bridge.logSoftmax_eq _ _ _ _ _ _ _ _ (V4 m ρ c main_v29) (W4_v29 m ρ c)

/-! ## The run -/

/-- Every weakly fair execution of the kernel program terminates with the result buffer at the reference's last stage of
    the argument arrays, and the arguments unchanged. -/
theorem run : θ_run defs (onTc (τ := τ) (main (F := Ideal))) ⟨m, fun _ => 0, ρ⟩ (fun r => ∀ c : Dev nD,
      r.2.mem ((c.tc : Thread nD τ).loc main_v30) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v30 (by decide))).trans (W5_v30 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)
    (Cert.KernelIdeal.GenP.run_all m ρ)

end Cert.KernelIdeal.Value

end
-- ==== Proof.RefRun.lean ====
/- The reference program's run, read back: every weakly fair execution of its @main terminates with the result buffer at
   the composed stages of the argument arrays and the arguments unchanged. The 58 host operations are read in five
   stretches — the first dense layer with its aggregation over the edges, the bias, cut at zero and second dense layer, the
   second aggregation, the second bias, the log-softmax — each stretch from the buffer contents the one before leaves, so
   that no step compares more than one stretch's operations. -/
import proofs.«106417_j47433618817355_1_alg».proof.Proof.RefReadP
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first dense layer and its aggregation over the edges (through the first scatter-add). -/
abbrev opsA : List (HloOp τ sig (Elt F)) :=
  [ binary main_arg0 main_arg4 main_v0 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v7 main_v9 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The first bias, the cut at zero, the second dense layer. -/
abbrev opsB : List (HloOp τ sig (Elt F)) :=
  [ unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v16) (TRef.of (T := ⟨S100000x128, .f32⟩) main_call0_v0) (TRef.of (T := ⟨S100000x128, .f32⟩) main_v17) maximumf,
    binary main_v17 main_arg6 main_v18 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]
/-- The second aggregation over the edges. -/
abbrev opsC : List (HloOp τ sig (Elt F)) :=
  [ nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_arg1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_arg1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg3 main_v26 (broadcastInDim S1600000x1 ![0] bcast_S1600000_S1600000x1_0 : (⟨S1600000, .f32⟩ : BufTy).Contents (Elt F) → (⟨S1600000x1, .f32⟩ : BufTy).Contents (Elt F)),
    unary main_v26 main_v27 (broadcastInDim S1600000x40 ![0, 1] bcast_S1600000x1_S1600000x40_0_1 : (⟨S1600000x1, .f32⟩ : BufTy).Contents (Elt F) → (⟨S1600000x40, .f32⟩ : BufTy).Contents (Elt F)),
    binary main_v25 main_v27 main_v28 (mulf : (⟨S1600000x40, .f32⟩ : BufTy).Contents (Elt F) → (⟨S1600000x40, .f32⟩ : BufTy).Contents (Elt F) → (⟨S1600000x40, .f32⟩ : BufTy).Contents (Elt F)),
    nullary main_cst_3 (constant S_ .f32 0x00000000#32),
    unary main_cst_3 main_v29 (broadcastInDim S100000x40 ![] bcast_S_S100000x40 : (⟨S_, .f32⟩ : BufTy).Contents (Elt F) → (⟨S100000x40, .f32⟩ : BufTy).Contents (Elt F)),
    unary main_arg2 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)) ]
/-- The second bias. -/
abbrev opsD : List (HloOp τ sig (Elt F)) :=
  [ unary main_arg7 main_v32 (broadcastInDim S1x40 ![1] bcast_S40_S1x40_1 : (⟨S40, .f32⟩ : BufTy).Contents (Elt F) → (⟨S1x40, .f32⟩ : BufTy).Contents (Elt F)),
    unary main_v32 main_v33 (broadcastInDim S100000x40 ![0, 1] bcast_S1x40_S100000x40_0_1 : (⟨S1x40, .f32⟩ : BufTy).Contents (Elt F) → (⟨S100000x40, .f32⟩ : BufTy).Contents (Elt F)),
    binary main_v31 main_v33 main_v34 (addf : (⟨S100000x40, .f32⟩ : BufTy).Contents (Elt F) → (⟨S100000x40, .f32⟩ : BufTy).Contents (Elt F) → (⟨S100000x40, .f32⟩ : BufTy).Contents (Elt F)) ]
/-- The log-softmax along the rows. -/
abbrev opsE : List (HloOp τ sig (Elt F)) :=
  [ TRef.nullary (TRef.of (T := ⟨S_, .f32⟩) main_call1_cst) (constant S_ .f32 0xFF800000#32),
    TRef.binary (TRef.of (T := ⟨S100000x40, .f32⟩) main_v34) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v34) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v35) subf ]

/-- The program's operations are the five stretches in order. -/
theorem ops_split : (ops : List (HloOp τ sig (Elt F))) = opsA ++ (opsB ++ (opsC ++ (opsD ++ opsE))) := rfl

variable (W : Valuation τ sig (Elt F))

/-- The contents after each stretch. -/
def W1 : Valuation τ sig (Elt F) := after opsA W
def W2 : Valuation τ sig (Elt F) := after opsB (W1 W)
def W3 : Valuation τ sig (Elt F) := after opsC (W2 W)
def W4 : Valuation τ sig (Elt F) := after opsD (W3 W)
def W5 : Valuation τ sig (Elt F) := after opsE (W4 W)

theorem after_ops : after ops W = W5 W := by
  rw [ops_split]; simp only [after_append]; rfl

/-- A buffer no operation of a stretch writes keeps its contents through the stretch. -/
local macro "not_written" : tactic =>
  `(tactic| (refine after_of_forall_not_mem _ _ (List.forall_iff_forall_mem.mp ?_)
             simp only [List.Forall, nullary_writes, unary_writes, binary_writes, ternary_writes, Finset.mem_singleton]
             repeat' apply And.intro
             all_goals exact devRef_ne_of_ne (by decide)))

theorem keepA_1 : W1 W (Proc.devRef .tc main_arg1) = (W (Proc.devRef .tc main_arg1)) := by show after opsA W _ = _; not_written
theorem keepA_2 : W1 W (Proc.devRef .tc main_arg2) = (W (Proc.devRef .tc main_arg2)) := by show after opsA W _ = _; not_written
theorem keepA_3 : W1 W (Proc.devRef .tc main_arg3) = (W (Proc.devRef .tc main_arg3)) := by show after opsA W _ = _; not_written
theorem keepA_5 : W1 W (Proc.devRef .tc main_arg5) = (W (Proc.devRef .tc main_arg5)) := by show after opsA W _ = _; not_written
theorem keepA_6 : W1 W (Proc.devRef .tc main_arg6) = (W (Proc.devRef .tc main_arg6)) := by show after opsA W _ = _; not_written
theorem keepA_7 : W1 W (Proc.devRef .tc main_arg7) = (W (Proc.devRef .tc main_arg7)) := by show after opsA W _ = _; not_written
theorem keepB_1 : W2 W (Proc.devRef .tc main_arg1) = (W (Proc.devRef .tc main_arg1)) := (by show after opsB (W1 W) _ = _; not_written : W2 W (Proc.devRef .tc main_arg1) = W1 W _).trans (keepA_1 W)
theorem keepB_2 : W2 W (Proc.devRef .tc main_arg2) = (W (Proc.devRef .tc main_arg2)) := (by show after opsB (W1 W) _ = _; not_written : W2 W (Proc.devRef .tc main_arg2) = W1 W _).trans (keepA_2 W)
theorem keepB_3 : W2 W (Proc.devRef .tc main_arg3) = (W (Proc.devRef .tc main_arg3)) := (by show after opsB (W1 W) _ = _; not_written : W2 W (Proc.devRef .tc main_arg3) = W1 W _).trans (keepA_3 W)
theorem keepB_7 : W2 W (Proc.devRef .tc main_arg7) = (W (Proc.devRef .tc main_arg7)) := (by show after opsB (W1 W) _ = _; not_written : W2 W (Proc.devRef .tc main_arg7) = W1 W _).trans (keepA_7 W)
theorem keepC_7 : W3 W (Proc.devRef .tc main_arg7) = (W (Proc.devRef .tc main_arg7)) := (by show after opsC (W2 W) _ = _; not_written : W3 W (Proc.devRef .tc main_arg7) = W2 W _).trans (keepB_7 W)

/-- After the first stretch the first aggregate's buffer holds its stage of the arguments. -/
theorem readA : W1 W (Proc.devRef .tc main_v13) = val_main_v13 (F := F) (W (Proc.devRef .tc main_arg0)) (W (Proc.devRef .tc main_arg1)) (W (Proc.devRef .tc main_arg2)) (W (Proc.devRef .tc main_arg3)) (W (Proc.devRef .tc main_arg4)) := by
  show after opsA W _ = _
  after_results_simp
  rfl

/-- After the second stretch the second product's buffer holds its stage. -/
theorem readB : W2 W (Proc.devRef .tc main_v18) = val_main_v18 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  show after opsB (W1 W) _ = _
  after_results_simp
  simp only [TRef.ofBuf, TRef.toBuf, cast_eq]
  rw [readA, keepA_5, keepA_6]
  rfl

/-- After the third stretch the second aggregate's buffer holds its stage. -/
theorem readC : W3 W (Proc.devRef .tc main_v31) = val_main_v31 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  show after opsC (W2 W) _ = _
  after_results_simp
  rw [readB, keepB_1, keepB_2, keepB_3]
  rfl

/-- After the fourth stretch the biased second aggregate's buffer holds its stage. -/
theorem readD : W4 W (Proc.devRef .tc main_v34) = val_main_v34 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  show after opsD (W3 W) _ = _
  after_results_simp
  rw [readC, keepC_7]
  rfl

/-- Contents moved to a buffer's own type and back are the contents. -/
theorem ofBuf_toBuf {T : BufTy} (x : TRef sig T) (v : T.Contents (Elt F)) : x.ofBuf (Val := Elt F) (x.toBuf v) = v := by
  obtain ⟨r, h, h1, h2⟩ := x
  subst h
  rfl

/-- After the last stretch the result buffer holds the last stage. -/
theorem readE : W5 W (Proc.devRef .tc main_v35) = val_main_v35 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  show after opsE (W4 W) _ = _
  after_results_simp
  simp only [ofBuf_toBuf]
  rw [show (TRef.of (T := ⟨S100000x40, .f32⟩) main_v34).ofBuf (Val := Elt F) (W4 W (Proc.devRef .tc main_v34)) = val_main_v34 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) from readD W]
  rfl

/-- The result buffer after all 58 operations holds the last stage of the arguments. -/
theorem read_ops : after ops W (Proc.devRef .tc main_v35) = val_main_v35 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_ops]; exact readE W

/-- No operation writes an argument array. -/
theorem keep_ops0 : after ops W (Proc.devRef .tc main_arg0) = (W (Proc.devRef .tc main_arg0)) := by not_written
theorem keep_ops1 : after ops W (Proc.devRef .tc main_arg1) = (W (Proc.devRef .tc main_arg1)) := by not_written
theorem keep_ops2 : after ops W (Proc.devRef .tc main_arg2) = (W (Proc.devRef .tc main_arg2)) := by not_written
theorem keep_ops3 : after ops W (Proc.devRef .tc main_arg3) = (W (Proc.devRef .tc main_arg3)) := by not_written
theorem keep_ops4 : after ops W (Proc.devRef .tc main_arg4) = (W (Proc.devRef .tc main_arg4)) := by not_written
theorem keep_ops5 : after ops W (Proc.devRef .tc main_arg5) = (W (Proc.devRef .tc main_arg5)) := by not_written
theorem keep_ops6 : after ops W (Proc.devRef .tc main_arg6) = (W (Proc.devRef .tc main_arg6)) := by not_written
theorem keep_ops7 : after ops W (Proc.devRef .tc main_arg7) = (W (Proc.devRef .tc main_arg7)) := by not_written

/-- On every device, from any memory with zero counters: every weakly fair execution of the reference's @main terminates
    with the result buffer at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v35).trans (read_ops _),
      (h c main_arg0).trans (keep_ops0 _), (h c main_arg1).trans (keep_ops1 _), (h c main_arg2).trans (keep_ops2 _),
      (h c main_arg3).trans (keep_ops3 _), (h c main_arg4).trans (keep_ops4 _), (h c main_arg5).trans (keep_ops5 _),
      (h c main_arg6).trans (keep_ops6 _), (h c main_arg7).trans (keep_ops7 _)⟩)
    (run_seq scopedRefs_eq scopedSems_eq defs main (fun _ => ops) main_eq (fun _ => ops_sub) m ρ)

end Cert.ReferenceIdeal.RefRun

end
-- ==== Proof.lean ====
/- A two-layer graph convolution network with a log-softmax, as three kernel regions (the first dense product; the bias, the
   cut at zero and the second dense product; the second bias and the log-softmax along the rows) with the two edge
   aggregations between them on the host, against the plain reference.

   Over the extended reals the two programs compute one function. Rounding an operand to bf16 is the identity there, a
   matrix product accumulated into a zero matrix is the sum over the contracted coordinate, and a product taken 5000 rows
   at a time is the whole product, so each region's result array is the reference's stage of the same arrays, entry by
   entry. The aggregations (a gather of rows by edge source, a scaling by the edge value, a scatter-add by edge destination)
   are the same operations in both programs and are carried as the reference's own stage terms, never opened: no algebraic
   law beyond the commutativity and associativity of the sums is used, and the finiteness of the inputs is not needed.
   The kernel program's run reads every buffer at the end of its last region; the reference's run is read in five
   stretches. -/
import proofs.«106417_j47433618817355_1_alg».proof.Defs
import proofs.«106417_j47433618817355_1_alg».proof.Proof.Gen.Kernel
import proofs.«106417_j47433618817355_1_alg».proof.Proof.Gen.Kernel.Frame
import proofs.«106417_j47433618817355_1_alg».proof.Proof.Gen.KernelIdeal
import proofs.«106417_j47433618817355_1_alg».proof.Proof.Gen.KernelIdeal.Frame
import proofs.«106417_j47433618817355_1_alg».proof.Proof.Gen.ReferenceIdeal
import proofs.«106417_j47433618817355_1_alg».proof.Proof.Gen.Pre_finite_inputs
import proofs.«106417_j47433618817355_1_alg».proof.Proof.KernelValue
import proofs.«106417_j47433618817355_1_alg».proof.Proof.RefRun
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the arguments the two idealized programs end with the same result: the reference's last
    stage of the arguments. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
